-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x1 : Shape := ⟨2, ![256, 1]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x1 : S_.BroadcastsInDim S256x1 (![] : Fin 0 → Fin S256x1.rank)
  reducesTo_S256x1_S_d0_1 : S256x1.ReducesTo [0, 1] S_

variable [Facts]

def fn_part2 {F : FTy → Type} [FloatOps F] (main_arg7 : FVec F S256x1 .f32) (main_v33 : IVec S_ 1) : IVec S_ 1 :=
  let main_v34 : FVec F S256x1 .f32 := Host.absf main_arg7
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  main_v38

def fn_part1 {F : FTy → Type} [FloatOps F] (main_arg4 : FVec F S256x1 .f32) (main_arg5 : FVec F S256x1 .f32) (main_arg6 : FVec F S256x1 .f32) (main_arg7 : FVec F S256x1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S256x1 .f32 := Host.absf main_arg6
  let main_cst_10 : FVec F S_ .f32 := constant S_ .f32 0x7F800000#32
  let main_v30 : FVec F S256x1 .f32 := broadcastInDim S256x1 ![] bcast_S_S256x1 main_cst_10
  let main_v31 : IVec S256x1 1 := cmpf .olt main_v29 main_v30
  let main_c_11 : IVec S_ 1 := constantI S_ 1 1#1
  let main_v32 : IVec S_ 1 := (fun x v => Host.reduce IntOp.andi x v reducesTo_S256x1_S_d0_1 h_S_) main_v31 main_c_11
  let main_v33 : IVec S_ 1 := andi main_v28 main_v32
  fn_part2 (F := F) main_arg7 main_v33

def fn {F : FTy → Type} [FloatOps F] (main_arg0 : FVec F S65536x256 .f32) (main_arg1 : FVec F S65536x256 .f32) (main_arg2 : FVec F S256x1 .f32) (main_arg3 : FVec F S256x1 .f32) (main_arg4 : FVec F S256x1 .f32) (main_arg5 : FVec F S256x1 .f32) (main_arg6 : FVec F S256x1 .f32) (main_arg7 : FVec F S256x1 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S256x1 .f32 := Host.absf main_arg2
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_arg5 main_arg6 main_arg7 main_v13 main_v16
-- ==== Kernel.lean ====
abbrev S65536x256 : Shape := ⟨2, ![65536, 256]⟩
abbrev S256x1 : Shape := ⟨2, ![256, 1]⟩
abbrev S1x256 : Shape := ⟨2, ![1, 256]⟩
abbrev S2048x256 : Shape := ⟨2, ![2048, 256]⟩
abbrev S2048 : Shape := ⟨1, ![2048]⟩
abbrev S2048x1 : Shape := ⟨2, ![2048, 1]⟩

abbrev nBuf : Space → Nat
  | .hbm => 16
  | .vmem => 12
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S256x1, .f32⟩
  | .hbm, ⟨3, _⟩ => ⟨S256x1, .f32⟩
  | .hbm, ⟨4, _⟩ => ⟨S256x1, .f32⟩
  | .hbm, ⟨5, _⟩ => ⟨S256x1, .f32⟩
  | .hbm, ⟨6, _⟩ => ⟨S256x1, .f32⟩
  | .hbm, ⟨7, _⟩ => ⟨S256x1, .f32⟩
  | .hbm, ⟨8, _⟩ => ⟨S256x1, .f32⟩
  | .hbm, ⟨9, _⟩ => ⟨S1x256, .f32⟩
  | .hbm, ⟨10, _⟩ => ⟨S256x1, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S65536x256, .f32⟩
  | .hbm, ⟨15, _⟩ => ⟨S65536x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S256x1_S1x256 : S256x1.ShapeCasts S1x256
  inb_S2048x256_S2048x256_0_0 : ∀ a, (![0, 0] : Fin 2 → Nat) a + S2048x256.size a ≤ S2048x256.size a
  h_S2048x256 : 0 < S2048x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  reduces_S2048x256_S2048 : S2048x256.Reduces [1] S2048
  shapeCasts_S2048_S2048x1 : S2048.ShapeCasts S2048x1
  broadcasts_S2048x1_S2048x256 : S2048x1.Broadcasts S2048x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S65536x256.size a
  hwx0_1 : ∀ i : grid0.Coords, EltTy.bits .f32 = 32 ∨ (Rect.block (s := S65536x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S65536x256.size a
  hwx0_6 : ∀ i : grid0.Coords, EltTy.bits .f32 = 32 ∨ (Rect.block (s := S65536x256) S2048x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S65536x256.size a
  hwx0_7 : ∀ i : grid0.Coords, EltTy.bits .f32 = 32 ∨ (Rect.block (s := S65536x256) S2048x256.size (cc0_transform_7 i) (hinb0_7 i)).WholeWords (EltTy.packing .f32)

variable [Facts₀]

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S2048x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S2048x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x1 : Shape := ⟨2, ![256, 1]⟩
abbrev S65536x1 : Shape := ⟨2, ![65536, 1]⟩
abbrev S256 : Shape := ⟨1, ![256]⟩
abbrev S1x256 : Shape := ⟨2, ![1, 256]⟩

abbrev nBuf : Space → Nat
  | .hbm => 24
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S256x1, .f32⟩
  | .hbm, ⟨3, _⟩ => ⟨S256x1, .f32⟩
  | .hbm, ⟨4, _⟩ => ⟨S256x1, .f32⟩
  | .hbm, ⟨5, _⟩ => ⟨S256x1, .f32⟩
  | .hbm, ⟨6, _⟩ => ⟨S256x1, .f32⟩
  | .hbm, ⟨7, _⟩ => ⟨S256x1, .f32⟩
  | .hbm, ⟨8, _⟩ => ⟨S256x1, .f32⟩
  | .hbm, ⟨9, _⟩ => ⟨S65536x1, .f32⟩
  | .hbm, ⟨10, _⟩ => ⟨S256x1, .f32⟩
  | .hbm, ⟨11, _⟩ => ⟨S65536x1, .f32⟩
  | .hbm, ⟨12, _⟩ => ⟨S65536x256, .f32⟩
  | .hbm, ⟨13, _⟩ => ⟨S65536x256, .f32⟩
  | .hbm, ⟨14, _⟩ => ⟨S256, .f32⟩
  | .hbm, ⟨15, _⟩ => ⟨S1x256, .f32⟩
  | .hbm, ⟨16, _⟩ => ⟨S65536x256, .f32⟩
  | .hbm, ⟨17, _⟩ => ⟨S65536x256, .f32⟩
  | .hbm, ⟨18, _⟩ => ⟨S65536x256, .f32⟩
  | .hbm, ⟨19, _⟩ => ⟨S65536x256, .f32⟩
  | .hbm, ⟨20, _⟩ => ⟨S256, .f32⟩
  | .hbm, ⟨21, _⟩ => ⟨S1x256, .f32⟩
  | .hbm, ⟨22, _⟩ => ⟨S65536x256, .f32⟩
  | .hbm, ⟨23, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S65536x1_S65536x256_0_1 : S65536x1.BroadcastsInDim S65536x256 (![0, 1] : Fin 2 → Fin S65536x256.rank)
  shapeCasts_S256x1_S256 : S256x1.ShapeCasts S256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  dot_S65536x256_S256x1_S65536x1_1_0_0_1_n_n_wf : DotDims.WF S65536x256 S256x1 S65536x1 [1] [0] [0] [1] [] []

variable [Facts₀]

def dot_S65536x256_S256x1_S65536x1_1_0_0_1_n_n : DotDims S65536x256 S256x1 S65536x1 where
  lhsContracting := [1]
  rhsContracting := [0]
  lhsNonContracting := [0]
  rhsNonContracting := [1]
  lhsBatch := []
  rhsBatch := []
  wf := dot_S65536x256_S256x1_S65536x1_1_0_0_1_n_n_wf

class Facts : Prop extends Facts₀ where

variable [Facts]
-- ==== Proof.FusedSpec.lean ====
/-
  The function both programs compute, index by index, on the extended reals.

  For a batch row `b` and a feature `i`,
      out[b, i] = cnn[b, i] * (∑ k, kg[b, k] * w[k]) + bias[i],
  where `w` and `bias` are ROWS (shape [1, 256]).  The bilinear fusion's outer product followed by a linear
  reduction collapses to this: one projection of the row `kg[b, ·]` onto the weight row, then a scale of
  `cnn[b, ·]` by that scalar and a shift by the bias row.  The two outputs of the unit are this function at
  two weight rows and two bias rows.

  The programs receive the weights as two COLUMNS (shape [256, 1]) to be added, and the bias as a column:
  `rowOf` turns a column into the row with the same entries, and `fusedCols` is the function of the columns.
-/
import Idealize.ShloMosaic.PureOps.Ideal
import Idealize.ShloMosaic.Lib.ValueIdx

noncomputable section

open scoped BigOperators

namespace Cert.SharedUnit

open Idealize.ShloMosaic Idealize.ShloMosaic.ValueIdx

/-- The batch of feature rows, [65536, 256]. -/
abbrev Batch : Shape := ⟨2, ![65536, 256]⟩
/-- A weight or bias column, [256, 1]. -/
abbrev Col : Shape := ⟨2, ![256, 1]⟩
/-- A weight or bias row, [1, 256]. -/
abbrev Row : Shape := ⟨2, ![1, 256]⟩

/-- The projection of batch row `b` of `kg` onto the weight row `w`: `∑ k, kg[b, k] * w[k]`. -/
def rowDot (kg : Batch.Idx → EReal) (w : Row.Idx → EReal) (b : Fin 65536) : EReal :=
  ∑ k : Fin 256, kg (ix2 b k) * w (ix2 (0 : Fin 1) k)

/-- The fused value at row `b`, feature `i`: `cnn[b, i]` scaled by the row's projection, shifted by `bias[i]`. -/
def fusedAt (cnn kg : Batch.Idx → EReal) (w bias : Row.Idx → EReal) (b : Fin 65536) (i : Fin 256) : EReal :=
  cnn (ix2 b i) * rowDot kg w b + bias (ix2 (0 : Fin 1) i)

/-- The fused array: `fusedAt` at each index's two coordinates. -/
def fused (cnn kg : Batch.Idx → EReal) (w bias : Row.Idx → EReal) : Batch.Idx → EReal :=
  fun j => fusedAt cnn kg w bias ⟨(j 0).val, idx2_lt0 j⟩ ⟨(j 1).val, idx2_lt1 j⟩

theorem fused_ix2 (cnn kg : Batch.Idx → EReal) (w bias : Row.Idx → EReal) (b : Fin 65536) (i : Fin 256) :
    fused cnn kg w bias (ix2 b i) = fusedAt cnn kg w bias b i := rfl

/-- The row with the entries of a column: `(rowOf x)[0, k] = x[k, 0]`. -/
def rowOf (x : Col.Idx → EReal) : Row.Idx → EReal :=
  fun j => x (ix2 (⟨(j 1).val, idx2_lt1 j⟩ : Fin 256) (0 : Fin 1))

theorem rowOf_ix2 (x : Col.Idx → EReal) (k : Fin 256) : rowOf x (ix2 (0 : Fin 1) k) = x (ix2 k (0 : Fin 1)) := rfl

/-- The fused array as a function of the programs' arguments: the weight row is the sum of the two weight
    columns, laid out as a row; the bias row is the bias column laid out as a row. -/
def fusedCols (cnn kg : Batch.Idx → EReal) (u v bias : Col.Idx → EReal) : Batch.Idx → EReal :=
  fused cnn kg (rowOf fun j => u j + v j) (rowOf bias)

end Cert.SharedUnit

end
-- ==== Proof.RefFused.lean ====
/-
  The reference computes the fused array.  Read one operation at a time at an index `(b, f)`:
  the two weight columns are added; the `dot_general` of the batch with that column is, at row `b`,
  `∑ k, kg[b, k] * (u[k, 0] + v[k, 0])`; it is broadcast along the features and multiplies `cnn[b, f]`;
  the bias column, reshaped to a vector and broadcast twice, contributes `bias[f, 0]`.  That is `fusedCols`
  of the arguments at `(b, f)`, the weight row being the sum of the columns and the bias row the bias column.
-/
import proofs.«112838_j36386962932119_1_alg».proof.Proof.Gen.ReferenceIdeal.Read
import proofs.«112838_j36386962932119_1_alg».proof.Proof.FusedSpec

noncomputable section

open scoped BigOperators

namespace Cert.SharedUnit

open Cert.ReferenceIdeal Cert.ReferenceIdeal.Read Idealize.ShloMosaic Idealize.ShloMosaic.ValueIdx

/-- Where the first `dot_general` reads its left operand for output `(b, f)`: batch row `b`, lane `k`. -/
theorem dotLhs_v1 (b : Fin 65536) (f : Fin 256) (k : Fin 256) :
    lidx_main_v1 (idx_main_v4 (ix2 b f)) k = ix2 b k :=
  funext fun a => Fin.ext (by match a with | ⟨0, _⟩ => rfl | ⟨1, _⟩ => rfl)

/-- … and its right operand: entry `k` of the weight column. -/
theorem dotRhs_v1 (b : Fin 65536) (f : Fin 256) (k : Fin 256) :
    ridx_main_v1 (idx_main_v4 (ix2 b f)) k = ix2 k (0 : Fin 1) :=
  funext fun a => Fin.ext (by match a with | ⟨0, _⟩ => rfl | ⟨1, _⟩ => rfl)

/-- The same two for the second `dot_general`. -/
theorem dotLhs_v3 (b : Fin 65536) (f : Fin 256) (k : Fin 256) :
    lidx_main_v3 (idx_main_v10 (ix2 b f)) k = ix2 b k :=
  funext fun a => Fin.ext (by match a with | ⟨0, _⟩ => rfl | ⟨1, _⟩ => rfl)

theorem dotRhs_v3 (b : Fin 65536) (f : Fin 256) (k : Fin 256) :
    ridx_main_v3 (idx_main_v10 (ix2 b f)) k = ix2 k (0 : Fin 1) :=
  funext fun a => Fin.ext (by match a with | ⟨0, _⟩ => rfl | ⟨1, _⟩ => rfl)

/-- Where output `(b, f)` reads the first bias column, through the reshape and the two broadcasts: entry `f`. -/
theorem biasIdx_v6 (b : Fin 65536) (f : Fin 256) :
    idx_main_v6 (idx_main_v7 (idx_main_v8 (ix2 b f))) = ix2 f (0 : Fin 1) :=
  funext fun a => Fin.ext (by match a with | ⟨0, _⟩ => exact Nat.div_one _ | ⟨1, _⟩ => rfl)

/-- … and the second. -/
theorem biasIdx_v12 (b : Fin 65536) (f : Fin 256) :
    idx_main_v12 (idx_main_v13 (idx_main_v14 (ix2 b f))) = ix2 f (0 : Fin 1) :=
  funext fun a => Fin.ext (by match a with | ⟨0, _⟩ => exact Nat.div_one _ | ⟨1, _⟩ => rfl)

/-- The reference's first result is the fused array of `(cnn, kg, w_aa, w_ab, d_cnn_bias)`. -/
theorem ref_first (x0 x1 : S65536x256.Idx → EReal) (x2 x3 x6 : S256x1.Idx → EReal) :
    val_main_v9 (F := Ideal) x0 x1 x2 x3 x6 = fusedCols x0 x1 x2 x3 x6 := by
  funext i
  obtain ⟨b, f, rfl⟩ : ∃ (b : Fin 65536) (f : Fin 256), i = ix2 b f := ⟨i 0, i 1, eq_ix2 i⟩
  rw [val_main_v9_apply, val_main_v5_apply, val_main_v4_apply, val_main_v1_apply, val_main_v8_apply,
    val_main_v7_apply, val_main_v6_apply]
  simp only [dotLhs_v1, dotRhs_v1, biasIdx_v6, val_main_v0_apply, Ideal.addf_def, Ideal.mulf_def]
  rfl

/-- The reference's second result is the fused array of `(cnn, kg, w_ba, w_bb, d_kg_bias)`. -/
theorem ref_second (x0 x1 : S65536x256.Idx → EReal) (x4 x5 x7 : S256x1.Idx → EReal) :
    val_main_v15 (F := Ideal) x0 x1 x4 x5 x7 = fusedCols x0 x1 x4 x5 x7 := by
  funext i
  obtain ⟨b, f, rfl⟩ : ∃ (b : Fin 65536) (f : Fin 256), i = ix2 b f := ⟨i 0, i 1, eq_ix2 i⟩
  rw [val_main_v15_apply, val_main_v11_apply, val_main_v10_apply, val_main_v3_apply, val_main_v14_apply,
    val_main_v13_apply, val_main_v12_apply]
  simp only [dotLhs_v3, dotRhs_v3, biasIdx_v12, val_main_v2_apply, Ideal.addf_def, Ideal.mulf_def]
  rfl

end Cert.SharedUnit

end
-- ==== Proof.ColumnRow.lean ====
/-
  A column [256, 1] reshaped to a row [1, 256] keeps its entries: a reshape keeps the row-major position, and entry
  `(0, k)` of the row and entry `(k, 0)` of the column both sit at position `k`.
-/
import proofs.«112838_j36386962932119_1_alg».proof.Proof.FusedSpec
import Idealize.ShloMosaic.Lib.Pipeline.Value

noncomputable section

namespace Cert.SharedUnit

open Idealize.ShloMosaic Idealize.ShloMosaic.ValueIdx

theorem reshape_col (x : Col.Idx → EReal) (h : Col.ShapeCasts Row) : shapeCast Row x h = rowOf x := by
  funext j
  obtain ⟨z, k, rfl⟩ : ∃ (z : Fin 1) (k : Fin 256), j = ix2 z k := ⟨j 0, j 1, eq_ix2 j⟩
  refine (shapeCast_apply x h (ix2 z k) (ix2 k (0 : Fin 1)) ?_).trans rfl
  rw [Shape.rowMajor_val_two, Shape.rowMajor_val_two]
  show k.val * 1 + 0 = z.val * 256 + k.val
  have := z.isLt
  omega

end Cert.SharedUnit

end
-- ==== Proof.LaneDot.lean ====
/-
  A tile of 2048 batch rows against one weight row: the kernel multiplies the tile [2048, 256] elementwise by the
  row [1, 256] broadcast down the tile, and sums each row of the product along the 256 lanes.  On the extended
  reals that lane sum, at tile row `p`, is `∑ k, tile[p, k] * w[0, k]`: the sum from the neutral accumulator is
  the plain finite sum over the lane coordinate, the broadcast reads the one row of `w`, and a shape cast of the
  row to its own shape changes nothing.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.SharedUnit

open Idealize.ShloMosaic Idealize.ShloMosaic.ValueIdx

/-- A tile of batch rows, [2048, 256]. -/
abbrev Tile : Shape := ⟨2, ![2048, 256]⟩
/-- One scalar per tile row, [2048]. -/
abbrev TileRows : Shape := ⟨1, ![2048]⟩
/-- A weight or bias row, [1, 256]. -/
abbrev LaneRow : Shape := ⟨2, ![1, 256]⟩

/-- The lane sum of `tile * broadcast(w)` at tile row `p` is the projection of that row onto `w`. -/
theorem laneDot (tile : FVec Ideal Tile .f32) (w : FVec Ideal LaneRow .f32)
    (hc : LaneRow.ShapeCasts LaneRow) (hb : LaneRow.Broadcasts Tile) (hr : Tile.Reduces [1] TileRows)
    (hφ : FKind.Formats .f32) (hacc : (0x00000000#32 : BitVec 32) = 0x00000000#32) (p : Fin 2048) :
    multiReduction .add [1] TileRows (mulf tile (broadcastTo Tile (shapeCast LaneRow w hc) hb)) 0x00000000#32 hr hφ hacc (ix1 p)
      = ∑ k : Fin 256, tile (ix2 p k) * w (ix2 (0 : Fin 1) k) := by
  refine (Ideal.multiReduction_add_single _ 0x00000000#32 hr hφ hacc (ix1 p)).trans ?_
  show ∑ k : Fin 256, mulf tile (broadcastTo Tile (shapeCast LaneRow w hc) hb) (hr.lift (ix1 p) k) = _
  refine Finset.sum_congr rfl fun (k : Fin 256) _ => ?_
  have e : hr.lift (ix1 p) k = ix2 p k :=
    funext fun a => Fin.ext (by match a with | ⟨0, _⟩ => rfl | ⟨1, _⟩ => rfl)
  rw [e, mulf_apply, broadcastTo_1b_ab_apply, shapeCast_self]

end Cert.SharedUnit

end
-- ==== Proof.TileValue.lean ====
/-
  What one grid point leaves in an output tile.  The body's stores, read back as one function of the four blocks
  it loaded (the generated `E6` / `E7` of the value leg), give at tile row `p`, lane `q`, on the extended reals:
      cnnTile[p, q] * (∑ k, kgTile[p, k] * w[0, k]) + bias[0, q].
  The product and the sum are the extended reals' own; the only step with content is the lane sum (`laneDot`).
  The two output windows run the same function on different weight and bias rows.
-/
import proofs.«112838_j36386962932119_1_alg».proof.Proof.Gen.KernelIdeal.Value
import proofs.«112838_j36386962932119_1_alg».proof.Proof.LaneDot

noncomputable section

open scoped BigOperators

namespace Cert.SharedUnit

open Cert.KernelIdeal Cert.KernelIdeal.Gen Idealize.ShloMosaic Idealize.ShloMosaic.ValueIdx

/-- The first output's tile at `(p, q)`. -/
theorem tile6_apply (cnnT kgT : Vec Ideal S2048x256 .f32) (w bias : Vec Ideal S1x256 .f32) (p : Fin 2048) (q : Fin 256) :
    Cert.KernelIdeal.Value.E6 (F := Ideal) cnnT kgT w bias (ix2 p q)
      = cnnT (ix2 p q) * (∑ k : Fin 256, kgT (ix2 p k) * w (ix2 (0 : Fin 1) k)) + bias (ix2 (0 : Fin 1) q) := by
  have e0 : Cert.KernelIdeal.Value.ix6_0 (ix2 p q) = ix2 p q :=
    funext fun a => Fin.ext (by match a with | ⟨0, _⟩ => rfl | ⟨1, _⟩ => rfl)
  have e1 : Cert.KernelIdeal.Value.ix6_1 (ix2 p q) = ix1 p :=
    funext fun a => Fin.ext (by match a with | ⟨0, _⟩ => rfl)
  have e2 : Cert.KernelIdeal.Value.ix6_2 (ix2 p q) = ix2 (0 : Fin 1) q :=
    funext fun a => Fin.ext (by match a with | ⟨0, _⟩ => rfl | ⟨1, _⟩ => rfl)
  show cnnT (Cert.KernelIdeal.Value.ix6_0 (ix2 p q))
      * multiReduction (F := Ideal) .add [1] S2048 (mulf kgT (broadcastTo S2048x256 (shapeCast S1x256 w shapeCasts_S1x256_S1x256) broadcasts_S1x256_S2048x256))
          0x00000000#32 reduces_S2048x256_S2048 (.inl rfl) rfl (Cert.KernelIdeal.Value.ix6_1 (ix2 p q))
      + bias (Cert.KernelIdeal.Value.ix6_2 (ix2 p q)) = _
  rw [e0, e1, e2]
  exact congrArg (fun s => cnnT (ix2 p q) * s + bias (ix2 (0 : Fin 1) q))
    (laneDot kgT w shapeCasts_S1x256_S1x256 broadcasts_S1x256_S2048x256 reduces_S2048x256_S2048 (.inl rfl) rfl p)

/-- The second output's tile at `(p, q)`: the same function of its four blocks. -/
theorem tile7_apply (cnnT kgT : Vec Ideal S2048x256 .f32) (w bias : Vec Ideal S1x256 .f32) (p : Fin 2048) (q : Fin 256) :
    Cert.KernelIdeal.Value.E7 (F := Ideal) cnnT kgT w bias (ix2 p q)
      = cnnT (ix2 p q) * (∑ k : Fin 256, kgT (ix2 p k) * w (ix2 (0 : Fin 1) k)) + bias (ix2 (0 : Fin 1) q) :=
  tile6_apply cnnT kgT w bias p q

end Cert.SharedUnit

end
-- ==== Proof.KernelFused.lean ====
/-
  From tiles to arrays.  Grid point `t` stages rows `[2048 t, 2048 t + 2048)` of `cnn` and of `kg`, the whole
  weight row and the whole bias row, and writes rows `[2048 t, 2048 t + 2048)` of each output.  So what point `t`
  writes back is block `t` of ONE whole-array function, the fused array of the arrays the region finds; the 32
  blocks tile the 65536 rows (row `r` lies in block `r / 2048`), hence after the run each output array IS that
  function.  The rows the region finds were written by the host operations before it: the weight row is the sum of
  the two weight columns laid out as a row, the bias row the bias column laid out as a row.
-/
import proofs.«112838_j36386962932119_1_alg».proof.Proof.Gen.KernelIdeal.Value
import proofs.«112838_j36386962932119_1_alg».proof.Proof.FusedSpec
import proofs.«112838_j36386962932119_1_alg».proof.Proof.ColumnRow
import proofs.«112838_j36386962932119_1_alg».proof.Proof.TileValue
import Idealize.ShloMosaic.Lib.StableHlo.Run

set_option maxRecDepth 16384

noncomputable section

open scoped BigOperators

namespace Cert.SharedUnit.Kernel

open Cert.SharedUnit Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## A tile read off the arrays is a tile of the fused array -/

/-- If the four blocks a point loads are rows `r0 …` of `cnn` and `kg` and the whole weight and bias rows, the
    tile value at `(p, q)` is the fused array at row `r0 + p`, feature `q`. -/
theorem tile_of_arrays (cnn kg : Batch.Idx → EReal) (w bias : Row.Idx → EReal)
    (cnnT kgT : Tile.Idx → EReal) (wT biasT : LaneRow.Idx → EReal) (r0 : Nat) (hr0 : r0 + 2048 ≤ 65536)
    (h0 : ∀ (p : Fin 2048) (q : Fin 256), cnnT (ix2 p q) = cnn (ix2 (⟨r0 + p.val, by have := p.isLt; omega⟩ : Fin 65536) q))
    (h1 : ∀ (p : Fin 2048) (q : Fin 256), kgT (ix2 p q) = kg (ix2 (⟨r0 + p.val, by have := p.isLt; omega⟩ : Fin 65536) q))
    (h2 : ∀ q : Fin 256, wT (ix2 (0 : Fin 1) q) = w (ix2 (0 : Fin 1) q))
    (h3 : ∀ q : Fin 256, biasT (ix2 (0 : Fin 1) q) = bias (ix2 (0 : Fin 1) q))
    (p : Fin 2048) (q : Fin 256) :
    cnnT (ix2 p q) * (∑ k : Fin 256, kgT (ix2 p k) * wT (ix2 (0 : Fin 1) k)) + biasT (ix2 (0 : Fin 1) q)
      = fusedAt cnn kg w bias ⟨r0 + p.val, by have := p.isLt; omega⟩ q := by
  unfold fusedAt rowDot
  rw [h0, h3]
  exact congrArg (fun s => cnn (ix2 (⟨r0 + p.val, by have := p.isLt; omega⟩ : Fin 65536) q) * s + bias (ix2 (0 : Fin 1) q))
    (Finset.sum_congr rfl fun k _ => by rw [h1, h2])

/-! ## The index maps, decided over the 32 grid points -/

theorem zeroOffsets : (![0, 0] : Fin 2 → Nat) = fun _ => 0 := funext fun a => by fin_cases a <;> rfl

/-- The two batch inputs and the two outputs move together down the rows, one tile per point; the weight and bias
    rows stay put; every window's lane block is the whole lane axis. -/
theorem index_maps : ∀ t : Fin cfg0.N,
    win0_6.index t (0 : Fin 2) ≤ 31 ∧ win0_6.index t (1 : Fin 2) = 0
    ∧ win0_7.index t (0 : Fin 2) = win0_6.index t (0 : Fin 2) ∧ win0_7.index t (1 : Fin 2) = 0
    ∧ win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The first row of point `t`'s tile, and that the tile ends inside the batch. -/
theorem tile_rows (t : Fin cfg0.N) : win0_6.index t (0 : Fin 2) * 2048 + 2048 ≤ 65536 := by
  have := (index_maps t).1
  omega

/-- Every one of the 32 row blocks is some point's, for either output. -/
theorem every_block6 : ∀ q0 : Fin 32, ∃ t : Fin cfg0.N, win0_6.index t = ![q0.val, 0] :=
  (by decide +kernel : ∀ q0 : Fin 32, ∃ t : Fin grid0.N, win0_6.index t = ![q0.val, 0])

theorem every_block7 : ∀ q0 : Fin 32, ∃ t : Fin cfg0.N, win0_7.index t = ![q0.val, 0] :=
  (by decide +kernel : ∀ q0 : Fin 32, ∃ t : Fin grid0.N, win0_7.index t = ![q0.val, 0])

/-! ## The blocks a point stages, read off the arrays the region finds -/

/-- The `cnn` tile of point `t` is rows `2048 t …` of `cnn`. -/
theorem cnn_tile (c : Dev nD) (t : Fin cfg0.N) (p : Fin 2048) (q : Fin 256) :
    iblk m c 0 t (ix2 p q)
      = V m c main_arg0 (ix2 (⟨win0_6.index t (0 : Fin 2) * 2048 + p.val, by have := tile_rows t; have := p.isLt; omega⟩ : Fin 65536) q) := by
  obtain ⟨b6, z6, b7, z7, b0, z0, b1, z1, a2, z2, a3, z3, a4, z4, a5, z5⟩ := index_maps t
  have hp : p.val < 2048 := p.isLt
  have hq : q.val < 256 := q.isLt
  show V m c main_arg0 (((cfg0.win 0).blk t).view.emb (ix2 p q)) = _
  refine congrArg (V m c main_arg0) (funext fun a => Fin.ext ?_)
  match a with
  | ⟨0, _⟩ => show win0_0.index t (0 : Fin 2) * 2048 + 1 * p.val = win0_6.index t (0 : Fin 2) * 2048 + p.val; omega
  | ⟨1, _⟩ => show win0_0.index t (1 : Fin 2) * 256 + 1 * q.val = q.val; omega

/-- The `kg` tile of point `t` is rows `2048 t …` of `kg`. -/
theorem kg_tile (c : Dev nD) (t : Fin cfg0.N) (p : Fin 2048) (q : Fin 256) :
    iblk m c 1 t (ix2 p q)
      = V m c main_arg1 (ix2 (⟨win0_6.index t (0 : Fin 2) * 2048 + p.val, by have := tile_rows t; have := p.isLt; omega⟩ : Fin 65536) q) := by
  obtain ⟨b6, z6, b7, z7, b0, z0, b1, z1, a2, z2, a3, z3, a4, z4, a5, z5⟩ := index_maps t
  have hp : p.val < 2048 := p.isLt
  have hq : q.val < 256 := q.isLt
  show V m c main_arg1 (((cfg0.win 1).blk t).view.emb (ix2 p q)) = _
  refine congrArg (V m c main_arg1) (funext fun a => Fin.ext ?_)
  match a with
  | ⟨0, _⟩ => show win0_1.index t (0 : Fin 2) * 2048 + 1 * p.val = win0_6.index t (0 : Fin 2) * 2048 + p.val; omega
  | ⟨1, _⟩ => show win0_1.index t (1 : Fin 2) * 256 + 1 * q.val = q.val; omega

/-- The first weight row is staged whole at every point. -/
theorem weight_row_first (c : Dev nD) (t : Fin cfg0.N) (q : Fin 256) :
    iblk m c 2 t (ix2 (0 : Fin 1) q) = V m c main_v1 (ix2 (0 : Fin 1) q) := by
  obtain ⟨b6, z6, b7, z7, b0, z0, b1, z1, a2, z2, a3, z3, a4, z4, a5, z5⟩ := index_maps t
  have hq : q.val < 256 := q.isLt
  show V m c main_v1 (((cfg0.win 2).blk t).view.emb (ix2 (0 : Fin 1) q)) = _
  refine congrArg (V m c main_v1) (funext fun a => Fin.ext ?_)
  match a with
  | ⟨0, _⟩ => show win0_2.index t (0 : Fin 2) * 1 + 1 * 0 = 0; omega
  | ⟨1, _⟩ => show win0_2.index t (1 : Fin 2) * 256 + 1 * q.val = q.val; omega

/-- So is the second weight row, -/
theorem weight_row_second (c : Dev nD) (t : Fin cfg0.N) (q : Fin 256) :
    iblk m c 3 t (ix2 (0 : Fin 1) q) = V m c main_v3 (ix2 (0 : Fin 1) q) := by
  obtain ⟨b6, z6, b7, z7, b0, z0, b1, z1, a2, z2, a3, z3, a4, z4, a5, z5⟩ := index_maps t
  have hq : q.val < 256 := q.isLt
  show V m c main_v3 (((cfg0.win 3).blk t).view.emb (ix2 (0 : Fin 1) q)) = _
  refine congrArg (V m c main_v3) (funext fun a => Fin.ext ?_)
  match a with
  | ⟨0, _⟩ => show win0_3.index t (0 : Fin 2) * 1 + 1 * 0 = 0; omega
  | ⟨1, _⟩ => show win0_3.index t (1 : Fin 2) * 256 + 1 * q.val = q.val; omega

/-- the first bias row, -/
theorem bias_row_first (c : Dev nD) (t : Fin cfg0.N) (q : Fin 256) :
    iblk m c 4 t (ix2 (0 : Fin 1) q) = V m c main_v4 (ix2 (0 : Fin 1) q) := by
  obtain ⟨b6, z6, b7, z7, b0, z0, b1, z1, a2, z2, a3, z3, a4, z4, a5, z5⟩ := index_maps t
  have hq : q.val < 256 := q.isLt
  show V m c main_v4 (((cfg0.win 4).blk t).view.emb (ix2 (0 : Fin 1) q)) = _
  refine congrArg (V m c main_v4) (funext fun a => Fin.ext ?_)
  match a with
  | ⟨0, _⟩ => show win0_4.index t (0 : Fin 2) * 1 + 1 * 0 = 0; omega
  | ⟨1, _⟩ => show win0_4.index t (1 : Fin 2) * 256 + 1 * q.val = q.val; omega

/-- and the second bias row. -/
theorem bias_row_second (c : Dev nD) (t : Fin cfg0.N) (q : Fin 256) :
    iblk m c 5 t (ix2 (0 : Fin 1) q) = V m c main_v5 (ix2 (0 : Fin 1) q) := by
  obtain ⟨b6, z6, b7, z7, b0, z0, b1, z1, a2, z2, a3, z3, a4, z4, a5, z5⟩ := index_maps t
  have hq : q.val < 256 := q.isLt
  show V m c main_v5 (((cfg0.win 5).blk t).view.emb (ix2 (0 : Fin 1) q)) = _
  refine congrArg (V m c main_v5) (funext fun a => Fin.ext ?_)
  match a with
  | ⟨0, _⟩ => show win0_5.index t (0 : Fin 2) * 1 + 1 * 0 = 0; omega
  | ⟨1, _⟩ => show win0_5.index t (1 : Fin 2) * 256 + 1 * q.val = q.val; omega

/-- Where tile entry `(p, q)` of point `t` lands in the first output: row `2048 t + p`, feature `q`. -/
theorem out_first_at (t : Fin cfg0.N) (p : Fin 2048) (q : Fin 256) :
    ((cfg0.win 6).blk t).view.emb (ix2 p q)
      = ix2 (⟨win0_6.index t (0 : Fin 2) * 2048 + p.val, by have := tile_rows t; have := p.isLt; omega⟩ : Fin 65536) q := by
  obtain ⟨b6, z6, b7, z7, b0, z0, b1, z1, a2, z2, a3, z3, a4, z4, a5, z5⟩ := index_maps t
  have hp : p.val < 2048 := p.isLt
  have hq : q.val < 256 := q.isLt
  funext a; apply Fin.ext
  match a with
  | ⟨0, _⟩ => show win0_6.index t (0 : Fin 2) * 2048 + 1 * p.val = win0_6.index t (0 : Fin 2) * 2048 + p.val; omega
  | ⟨1, _⟩ => show win0_6.index t (1 : Fin 2) * 256 + 1 * q.val = q.val; omega

/-- The same place in the second output. -/
theorem out_second_at (t : Fin cfg0.N) (p : Fin 2048) (q : Fin 256) :
    ((cfg0.win 7).blk t).view.emb (ix2 p q)
      = ix2 (⟨win0_6.index t (0 : Fin 2) * 2048 + p.val, by have := tile_rows t; have := p.isLt; omega⟩ : Fin 65536) q := by
  obtain ⟨b6, z6, b7, z7, b0, z0, b1, z1, a2, z2, a3, z3, a4, z4, a5, z5⟩ := index_maps t
  have hp : p.val < 2048 := p.isLt
  have hq : q.val < 256 := q.isLt
  funext a; apply Fin.ext
  match a with
  | ⟨0, _⟩ => show win0_7.index t (0 : Fin 2) * 2048 + 1 * p.val = win0_6.index t (0 : Fin 2) * 2048 + p.val; omega
  | ⟨1, _⟩ => show win0_7.index t (1 : Fin 2) * 256 + 1 * q.val = q.val; omega

/-! ## What point `t` writes back is block `t` of the fused array -/

/-- The first output. -/
theorem flushed6_eq (c : Dev nD) (t : Fin cfg0.N) :
    (dats m 0 c).flushed 6 t = ((cfg0.win 6).blk t).view.read (Elt Ideal)
      (fused (V m c main_arg0) (V m c main_arg1) (V m c main_v1) (V m c main_v4)) := by
  rw [Cert.KernelIdeal.Value.flushed6]
  unfold out0_6
  simp only [View.ld_unit_zero (S := S2048x256) zeroOffsets, View.ld_unit_zero (S := S1x256) zeroOffsets]
  funext j
  obtain ⟨p, q, rfl⟩ : ∃ (p : Fin 2048) (q : Fin 256), j = ix2 p q := ⟨j 0, j 1, eq_ix2 j⟩
  show (_ : EReal)
    = fused (V m c main_arg0) (V m c main_arg1) (V m c main_v1) (V m c main_v4) (((cfg0.win 6).blk t).view.emb (ix2 p q))
  refine (Cert.KernelIdeal.Value.canon6_eq (iblk m c 0 t) (iblk m c 1 t) (iblk m c 2 t) (iblk m c 4 t) (ix2 p q)).trans ?_
  refine (tile6_apply (iblk m c 0 t) (iblk m c 1 t) (iblk m c 2 t) (iblk m c 4 t) p q).trans ?_
  rw [out_first_at, fused_ix2]
  exact tile_of_arrays (V m c main_arg0) (V m c main_arg1) (V m c main_v1) (V m c main_v4)
    (iblk m c 0 t) (iblk m c 1 t) (iblk m c 2 t) (iblk m c 4 t) (win0_6.index t (0 : Fin 2) * 2048) (tile_rows t)
    (cnn_tile m c t) (kg_tile m c t) (weight_row_first m c t) (bias_row_first m c t) p q

/-- The second output. -/
theorem flushed7_eq (c : Dev nD) (t : Fin cfg0.N) :
    (dats m 0 c).flushed 7 t = ((cfg0.win 7).blk t).view.read (Elt Ideal)
      (fused (V m c main_arg0) (V m c main_arg1) (V m c main_v3) (V m c main_v5)) := by
  rw [Cert.KernelIdeal.Value.flushed7]
  unfold out0_7
  simp only [View.ld_unit_zero (S := S2048x256) zeroOffsets, View.ld_unit_zero (S := S1x256) zeroOffsets]
  funext j
  obtain ⟨p, q, rfl⟩ : ∃ (p : Fin 2048) (q : Fin 256), j = ix2 p q := ⟨j 0, j 1, eq_ix2 j⟩
  show (_ : EReal)
    = fused (V m c main_arg0) (V m c main_arg1) (V m c main_v3) (V m c main_v5) (((cfg0.win 7).blk t).view.emb (ix2 p q))
  refine (Cert.KernelIdeal.Value.canon7_eq (iblk m c 0 t) (iblk m c 1 t) (iblk m c 3 t) (iblk m c 5 t) (ix2 p q)).trans ?_
  refine (tile7_apply (iblk m c 0 t) (iblk m c 1 t) (iblk m c 3 t) (iblk m c 5 t) p q).trans ?_
  rw [out_second_at, fused_ix2]
  exact tile_of_arrays (V m c main_arg0) (V m c main_arg1) (V m c main_v3) (V m c main_v5)
    (iblk m c 0 t) (iblk m c 1 t) (iblk m c 3 t) (iblk m c 5 t) (win0_6.index t (0 : Fin 2) * 2048) (tile_rows t)
    (cnn_tile m c t) (kg_tile m c t) (weight_row_second m c t) (bias_row_second m c t) p q

/-! ## The 32 blocks tile the batch -/

/-- An index is in point `t`'s block of the first output iff each coordinate is in the block's range. -/
theorem mem_block6 (t : Fin cfg0.N) (i : S65536x256.Idx) :
    i ∈ ((cfg0.win 6).blk t).view.set ↔ ∀ a : Fin 2, win0_6.index t a * S2048x256.size a ≤ (i a).val
      ∧ (i a).val < win0_6.index t a * S2048x256.size a + S2048x256.size a := by
  show i ∈ ((View.whole main_v6_0).slice (win0_6.rect t)).set ↔ _
  rw [View.set_slice_whole, Rect.mem_set_unit]
  exact Iff.rfl

theorem mem_block7 (t : Fin cfg0.N) (i : S65536x256.Idx) :
    i ∈ ((cfg0.win 7).blk t).view.set ↔ ∀ a : Fin 2, win0_7.index t a * S2048x256.size a ≤ (i a).val
      ∧ (i a).val < win0_7.index t a * S2048x256.size a + S2048x256.size a := by
  show i ∈ ((View.whole main_v6_1).slice (win0_7.rect t)).set ↔ _
  rw [View.set_slice_whole, Rect.mem_set_unit]
  exact Iff.rfl

/-- Row `r` of the first output lies in the block of the point whose row block is `r / 2048`. -/
theorem cover6 (i : S65536x256.Idx) : ∃ t : Fin cfg0.N, (cfg0.win 6).flush t = true ∧ i ∈ ((cfg0.win 6).blk t).view.set := by
  have hi0 : (i 0).val < 65536 := (i 0).isLt
  have hi1 : (i 1).val < 256 := (i 1).isLt
  obtain ⟨t, ht⟩ := every_block6 ⟨(i 0).val / 2048, by omega⟩
  have q0 : win0_6.index t (0 : Fin 2) = (i 0).val / 2048 := congrFun ht 0
  have q1 : win0_6.index t (1 : Fin 2) = 0 := congrFun ht 1
  refine ⟨t, flush0_6 t, ?_⟩
  rw [mem_block6]
  intro a
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 256 ≤ (i 1).val ∧ (i 1).val < win0_6.index t (1 : Fin 2) * 256 + 256; omega

theorem cover7 (i : S65536x256.Idx) : ∃ t : Fin cfg0.N, (cfg0.win 7).flush t = true ∧ i ∈ ((cfg0.win 7).blk t).view.set := by
  have hi0 : (i 0).val < 65536 := (i 0).isLt
  have hi1 : (i 1).val < 256 := (i 1).isLt
  obtain ⟨t, ht⟩ := every_block7 ⟨(i 0).val / 2048, by omega⟩
  have q0 : win0_7.index t (0 : Fin 2) = (i 0).val / 2048 := congrFun ht 0
  have q1 : win0_7.index t (1 : Fin 2) = 0 := congrFun ht 1
  refine ⟨t, flush0_7 t, ?_⟩
  rw [mem_block7]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 256 ≤ (i 1).val ∧ (i 1).val < win0_7.index t (1 : Fin 2) * 256 + 256; omega

/-! ## The rows the host operations wrote before the region -/

/-- The first weight row the region finds: the sum of the first two weight columns, as a row. -/
theorem weight_first_found (c : Dev nD) :
    @Eq (S1x256.Idx → EReal) (V m c main_v1)
      (rowOf (addf (F := Ideal) (s := S256x1) (φ := .f32)
        (m ((c : Thread nD τ).loc main_arg2)) (m ((c : Thread nD τ).loc main_arg3)))) := by
  have e : @Eq (S1x256.Idx → EReal) (V m c main_v1)
      (shapeCast S1x256 (addf (F := Ideal) (s := S256x1) (φ := .f32)
        (m ((c : Thread nD τ).loc main_arg2)) (m ((c : Thread nD τ).loc main_arg3))) shapeCasts_S256x1_S1x256) := by
    dsimp only [Gen.V, Gen.hostOps0]; after_results; rfl
  exact e.trans (reshape_col _ _)

/-- The second weight row: the sum of the last two weight columns, as a row. -/
theorem weight_second_found (c : Dev nD) :
    @Eq (S1x256.Idx → EReal) (V m c main_v3)
      (rowOf (addf (F := Ideal) (s := S256x1) (φ := .f32)
        (m ((c : Thread nD τ).loc main_arg4)) (m ((c : Thread nD τ).loc main_arg5)))) := by
  have e : @Eq (S1x256.Idx → EReal) (V m c main_v3)
      (shapeCast S1x256 (addf (F := Ideal) (s := S256x1) (φ := .f32)
        (m ((c : Thread nD τ).loc main_arg4)) (m ((c : Thread nD τ).loc main_arg5))) shapeCasts_S256x1_S1x256) := by
    dsimp only [Gen.V, Gen.hostOps0]; after_results; rfl
  exact e.trans (reshape_col _ _)

/-- The first bias row: the first bias column, as a row. -/
theorem bias_first_found (c : Dev nD) :
    @Eq (S1x256.Idx → EReal) (V m c main_v4) (rowOf (m ((c : Thread nD τ).loc main_arg6))) := by
  have e : @Eq (S1x256.Idx → EReal) (V m c main_v4)
      (shapeCast S1x256 (m ((c : Thread nD τ).loc main_arg6)) shapeCasts_S256x1_S1x256) := by
    dsimp only [Gen.V, Gen.hostOps0]; after_results; rfl
  exact e.trans (reshape_col _ _)

/-- The second bias row: the second bias column, as a row. -/
theorem bias_second_found (c : Dev nD) :
    @Eq (S1x256.Idx → EReal) (V m c main_v5) (rowOf (m ((c : Thread nD τ).loc main_arg7))) := by
  have e : @Eq (S1x256.Idx → EReal) (V m c main_v5)
      (shapeCast S1x256 (m ((c : Thread nD τ).loc main_arg7)) shapeCasts_S256x1_S1x256) := by
    dsimp only [Gen.V, Gen.hostOps0]; after_results; rfl
  exact e.trans (reshape_col _ _)

/-! ## The output arrays after the run -/

/-- The first output array ends as the fused array of `(cnn, kg, w_aa, w_ab, d_cnn_bias)` as launched. -/
theorem first_array (c : Dev nD) :
    (dats m 0 c).arrAt 6 cfg0.N
      = fusedCols (m ((c : Thread nD τ).loc main_arg0)) (m ((c : Thread nD τ).loc main_arg1))
          (m ((c : Thread nD τ).loc main_arg2)) (m ((c : Thread nD τ).loc main_arg3)) (m ((c : Thread nD τ).loc main_arg6)) := by
  rw [(dats m 0 c).arrAt_eq_of_cover 6
    (fused (V m c main_arg0) (V m c main_arg1) (V m c main_v1) (V m c main_v4)) (fun t _ => flushed6_eq m c t) cover6]
  rw [V_main_arg0, V_main_arg1, weight_first_found, bias_first_found]
  rfl

/-- The second output array ends as the fused array of `(cnn, kg, w_ba, w_bb, d_kg_bias)` as launched. -/
theorem second_array (c : Dev nD) :
    (dats m 0 c).arrAt 7 cfg0.N
      = fusedCols (m ((c : Thread nD τ).loc main_arg0)) (m ((c : Thread nD τ).loc main_arg1))
          (m ((c : Thread nD τ).loc main_arg4)) (m ((c : Thread nD τ).loc main_arg5)) (m ((c : Thread nD τ).loc main_arg7)) := by
  rw [(dats m 0 c).arrAt_eq_of_cover 7
    (fused (V m c main_arg0) (V m c main_arg1) (V m c main_v3) (V m c main_v5)) (fun t _ => flushed7_eq m c t) cover7]
  rw [V_main_arg0, V_main_arg1, weight_second_found, bias_second_found]
  rfl

/-! ## The kernel's run, read -/

/-- Every weakly fair execution of the idealized kernel terminates with the two results at the fused arrays of the
    arguments as launched, the arguments unchanged. -/
theorem run : θ_run defs (onTc (τ := τ) (main (F := Ideal))) ⟨m, fun _ => 0, ρ⟩ fun r => ∀ c : Dev nD,
      r.2.mem ((c : Thread nD τ).loc main_v6_0)
        = fusedCols (m ((c : Thread nD τ).loc main_arg0)) (m ((c : Thread nD τ).loc main_arg1))
            (m ((c : Thread nD τ).loc main_arg2)) (m ((c : Thread nD τ).loc main_arg3)) (m ((c : Thread nD τ).loc main_arg6))
      ∧ r.2.mem ((c : Thread nD τ).loc main_v6_1)
        = fusedCols (m ((c : Thread nD τ).loc main_arg0)) (m ((c : Thread nD τ).loc main_arg1))
            (m ((c : Thread nD τ).loc main_arg4)) (m ((c : Thread nD τ).loc main_arg5)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (first_array m c), (h c).2.1.trans (second_array m c), (h c).2.2⟩)
    (Cert.KernelIdeal.Value.run_blocks m ρ)

end Cert.SharedUnit.Kernel

end
-- ==== Proof.lean ====
/- The bilinear fusion unit, collapsed: for a batch row `b` and a feature `i`,
       out_cnn[b, i] = cnn[b, i] * (∑ k, kg[b, k] * (w_aa[k] + w_ab[k])) + d_cnn_bias[i],
       out_kg [b, i] = cnn[b, i] * (∑ k, kg[b, k] * (w_ba[k] + w_bb[k])) + d_kg_bias[i].
   The kernel adds the weight columns on the host, lays them and the biases out as rows, and streams the batch through
   32 tiles of 2048 rows, taking each row's projection as a lane sum of an elementwise product; the reference takes the
   projection as a matrix product with the summed column and broadcasts.  On the extended reals both are the same
   finite sum of the same products, so no finiteness of the inputs is used: the two sides are one function
   (`Cert.SharedUnit.fusedCols`) of the arguments, index by index.
   `Proof/FusedSpec.lean` states that function; `Proof/RefFused.lean` reads the reference's run as it;
   `Proof/LaneDot.lean`, `Proof/TileValue.lean`, `Proof/ColumnRow.lean` and `Proof/KernelFused.lean` read the kernel's
   run as it (the lane sum, one tile, the reshaped rows, the tiles covering the batch).  The three frames are the
   programs' runs with the results dropped; the idealization rewrote nothing, so `preserves` is trivial. -/
import proofs.«112838_j36386962932119_1_alg».proof.Defs
import proofs.«112838_j36386962932119_1_alg».proof.Proof.Gen.Kernel
import proofs.«112838_j36386962932119_1_alg».proof.Proof.Gen.Kernel.Skeleton
import proofs.«112838_j36386962932119_1_alg».proof.Proof.Gen.Kernel.Launch
import proofs.«112838_j36386962932119_1_alg».proof.Proof.Gen.Kernel.Points
import proofs.«112838_j36386962932119_1_alg».proof.Proof.Gen.Kernel.Frame
import proofs.«112838_j36386962932119_1_alg».proof.Proof.Gen.KernelIdeal
import proofs.«112838_j36386962932119_1_alg».proof.Proof.Gen.KernelIdeal.Skeleton
import proofs.«112838_j36386962932119_1_alg».proof.Proof.Gen.KernelIdeal.Launch
import proofs.«112838_j36386962932119_1_alg».proof.Proof.Gen.KernelIdeal.Points
import proofs.«112838_j36386962932119_1_alg».proof.Proof.Gen.KernelIdeal.Frame
import proofs.«112838_j36386962932119_1_alg».proof.Proof.Gen.ReferenceIdeal
import proofs.«112838_j36386962932119_1_alg».proof.Proof.Gen.Pre_finite_inputs
import proofs.«112838_j36386962932119_1_alg».proof.Proof.Gen.KernelIdeal.Value
import proofs.«112838_j36386962932119_1_alg».proof.Proof.Gen.ReferenceIdeal.Run
import proofs.«112838_j36386962932119_1_alg».proof.Proof.Gen.ReferenceIdeal.Read
import proofs.«112838_j36386962932119_1_alg».proof.Proof.RefFused
import proofs.«112838_j36386962932119_1_alg».proof.Proof.KernelFused
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the eight arguments the kernel ends with its two results at the fused arrays of its
    arguments, and the reference with its two results at the fused arrays of its own, which are the same arrays. -/
theorem algebraic : Cert.algebraic_KernelIdeal_ReferenceIdeal := by
  intro m ρ m' ρ' _ hagree
  refine ⟨_, _, Cert.SharedUnit.Kernel.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨e0, e1, e2, e3, e4, e5, e6, e7⟩ := hagree c
    rw [e0, e1, e2, e3, e6]
    exact Cert.SharedUnit.ref_first _ _ _ _ _
  · obtain ⟨e0, e1, e2, e3, e4, e5, e6, e7⟩ := hagree c
    rw [e0, e1, e4, e5, e7]
    exact Cert.SharedUnit.ref_second _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
